-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S640000x128 : Shape := ⟨2, ![640000, 128]⟩
abbrev S10000x128 : Shape := ⟨2, ![10000, 128]⟩
abbrev S640000 : Shape := ⟨1, ![640000]⟩
abbrev S384x256 : Shape := ⟨2, ![384, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S640000x128 : S_.BroadcastsInDim S640000x128 (![] : Fin 0 → Fin S640000x128.rank)
  reducesTo_S640000x128_S_d0_1 : S640000x128.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S256x128 .f32) (main_arg7 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S640000x128 .f32) (main_arg1 : FVec F S10000x128 .f32) (main_arg2 : IVec S640000 32) (main_arg3 : IVec S640000 32) (main_arg4 : FVec F S384x256 .f32) (main_arg5 : FVec F S256 .f32) (main_arg6 : FVec F S256x128 .f32) (main_arg7 : FVec F S128 .f32) : IVec S_ 1 :=
  let main_v0 : FVec F S640000x128 .f32 := Host.absf main_arg0
  let main_cst : FVec F S_ .f32 := constant S_ .f32 0x7F800000#32
  let main_v1 : FVec F S640000x128 .f32 := broadcastInDim S640000x128 ![] bcast_S_S640000x128 main_cst
  let main_v2 : IVec S640000x128 1 := cmpf .olt main_v0 main_v1
  let main_c : IVec S_ 1 := constantI S_ 1 1#1
  let main_v3 : IVec S_ 1 := (fun x v => Host.reduce IntOp.andi x v reducesTo_S640000x128_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S384x256 .f32 := Host.absf main_arg4
  let main_cst_2 : FVec F S_ .f32 := constant S_ .f32 0x7F800000#32
  let main_v10 : FVec F S384x256 .f32 := broadcastInDim S384x256 ![] bcast_S_S384x256 main_cst_2
  let main_v11 : IVec S384x256 1 := cmpf .olt main_v9 main_v10
  let main_c_3 : IVec S_ 1 := constantI S_ 1 1#1
  let main_v12 : IVec S_ 1 := (fun x v => Host.reduce IntOp.andi x v reducesTo_S384x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_v13 main_v16
-- ==== Kernel.lean ====
abbrev S640000x128 : Shape := ⟨2, ![640000, 128]⟩
abbrev S10000x128 : Shape := ⟨2, ![10000, 128]⟩
abbrev S640000 : Shape := ⟨1, ![640000]⟩
abbrev S384x256 : Shape := ⟨2, ![384, 256]⟩
abbrev S256 : Shape := ⟨1, ![256]⟩
abbrev S256x128 : Shape := ⟨2, ![256, 128]⟩
abbrev S128 : Shape := ⟨1, ![128]⟩
abbrev S_ : Shape := ⟨0, ![]⟩
abbrev S640000x1 : Shape := ⟨2, ![640000, 1]⟩
abbrev S128x256 : Shape := ⟨2, ![128, 256]⟩
abbrev S4000x128 : Shape := ⟨2, ![4000, 128]⟩
abbrev S4000x256 : Shape := ⟨2, ![4000, 256]⟩
abbrev S1x256 : Shape := ⟨2, ![1, 256]⟩
abbrev S1x128 : Shape := ⟨2, ![1, 128]⟩

abbrev nBuf : Space → Nat
  | .hbm => 35
  | .vmem => 14
  | .smem => 0
  | _ => 0

abbrev bufTy : (tb : Table) → Fin (tcTables nBuf tb) → BufTy
  | .hbm, ⟨0, _⟩ => ⟨S640000x128, .f32⟩
  | .hbm, ⟨1, _⟩ => ⟨S10000x128, .f32⟩
  | .hbm, ⟨2, _⟩ => ⟨S640000, .i32⟩
  | .hbm, ⟨3, _⟩ => ⟨S640000, .i32⟩
  | .hbm, ⟨4, _⟩ => ⟨S384x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S10000x128, .bf16⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .bf16⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S640000x128, .bf16⟩
  | .hbm, ⟨27, _⟩ => ⟨S128x256, .f32⟩
  | .hbm, ⟨28, _⟩ => ⟨S128x256, .bf16⟩
  | .hbm, ⟨29, _⟩ => ⟨S128x256, .f32⟩
  | .hbm, ⟨30, _⟩ => ⟨S128x256, .bf16⟩
  | .hbm, ⟨31, _⟩ => ⟨S128x256, .f32⟩
  | .hbm, ⟨32, _⟩ => ⟨S128x256, .bf16⟩
  | .hbm, ⟨33, _⟩ => ⟨S256x128, .bf16⟩
  | .hbm, ⟨34, _⟩ => ⟨S640000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .bf16⟩
  | .local _ .vmem, ⟨3, _⟩ => ⟨S4000x128, .bf16⟩
  | .local _ .vmem, ⟨4, _⟩ => ⟨S4000x128, .bf16⟩
  | .local _ .vmem, ⟨5, _⟩ => ⟨S4000x128, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S256, .f32⟩
  | .local _ .vmem, ⟨10, _⟩ => ⟨S256x128, .bf16⟩
  | .local _ .vmem, ⟨11, _⟩ => ⟨S128, .f32⟩
  | .local _ .vmem, ⟨12, _⟩ => ⟨S4000x128, .f32⟩
  | .local _ .vmem, ⟨13, _⟩ => ⟨S4000x128, .f32⟩
  | _, _ => ⟨S640000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  bcast_S_S640000 : S_.BroadcastsInDim S640000 (![] : Fin 0 → Fin S640000.rank)
  bcast_S640000_S640000x1_0 : S640000.BroadcastsInDim S640000x1 (![0] : Fin 1 → Fin S640000x1.rank)
  slices_S384x256_S128x256_0_0 : S384x256.Slices ![0, 0] S128x256
  slices_S384x256_S128x256_128_0 : S384x256.Slices ![128, 0] S128x256
  slices_S384x256_S128x256_256_0 : S384x256.Slices ![256, 0] S128x256
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S1x256 : S256.ShapeCasts S1x256
  broadcasts_S1x256_S4000x256 : S1x256.Broadcasts S4000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  gather_S10000x128_S640000x1_S640000x128_1_0_n_n_0_1_1128_wf : GatherDims.WF S10000x128 S640000x1 S640000x128 [1] [0] [] [0] [] 1 ![1, 128]
  dot_S4000x128_S128x256_S4000x256_1_0_0_1_n_n_wf : DotDims.WF S4000x128 S128x256 S4000x256 [1] [0] [0] [1] [] []
  dot_S4000x256_S256x128_S4000x128_1_0_0_1_n_n_wf : DotDims.WF S4000x256 S256x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S640000x128.size a
  hwx0_0 : ∀ i : grid0.Coords, EltTy.bits .f32 = 32 ∨ (Rect.block (s := S640000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S640000x128.size a
  hwx0_1 : ∀ i : grid0.Coords, EltTy.bits .bf16 = 32 ∨ (Rect.block (s := S640000x128) S4000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S640000x128.size a
  hwx0_2 : ∀ i : grid0.Coords, EltTy.bits .bf16 = 32 ∨ (Rect.block (s := S640000x128) S4000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .bf16 = 32 ∨ (Rect.block (s := S128x256) S128x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .bf16 = 32 ∨ (Rect.block (s := S256x128) S256x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S640000x128.size a
  hwx0_9 : ∀ i : grid0.Coords, EltTy.bits .f32 = 32 ∨ (Rect.block (s := S640000x128) S4000x128.size (cc0_transform_9 i) (hinb0_9 i)).WholeWords (EltTy.packing .f32)

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v22) S4000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S640000x128 : Shape := ⟨2, ![640000, 128]⟩
abbrev S10000x128 : Shape := ⟨2, ![10000, 128]⟩
abbrev S640000 : Shape := ⟨1, ![640000]⟩
abbrev S384x256 : Shape := ⟨2, ![384, 256]⟩
abbrev S256 : Shape := ⟨1, ![256]⟩
abbrev S256x128 : Shape := ⟨2, ![256, 128]⟩
abbrev S128 : Shape := ⟨1, ![128]⟩
abbrev S_ : Shape := ⟨0, ![]⟩
abbrev S640000x1 : Shape := ⟨2, ![640000, 1]⟩
abbrev S640000x384 : Shape := ⟨2, ![640000, 384]⟩
abbrev S640000x256 : Shape := ⟨2, ![640000, 256]⟩
abbrev S1x256 : Shape := ⟨2, ![1, 256]⟩
abbrev S1x128 : Shape := ⟨2, ![1, 128]⟩

abbrev nBuf : Space → Nat
  | .hbm => 38
  | .vmem => 0
  | .smem => 0
  | _ => 0

abbrev bufTy : (tb : Table) → Fin (tcTables nBuf tb) → BufTy
  | .hbm, ⟨0, _⟩ => ⟨S640000x128, .f32⟩
  | .hbm, ⟨1, _⟩ => ⟨S10000x128, .f32⟩
  | .hbm, ⟨2, _⟩ => ⟨S640000, .i32⟩
  | .hbm, ⟨3, _⟩ => ⟨S640000, .i32⟩
  | .hbm, ⟨4, _⟩ => ⟨S384x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S_, .i32⟩
  | .hbm, ⟨9, _⟩ => ⟨S640000, .i32⟩
  | .hbm, ⟨10, _⟩ => ⟨S640000, .i1⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S640000, .i32⟩
  | .hbm, ⟨15, _⟩ => ⟨S640000x1, .i32⟩
  | .hbm, ⟨16, _⟩ => ⟨S640000x128, .f32⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S640000x128, .f32⟩
  | .hbm, ⟨26, _⟩ => ⟨S640000x384, .f32⟩
  | .hbm, ⟨27, _⟩ => ⟨S640000x256, .f32⟩
  | .hbm, ⟨28, _⟩ => ⟨S1x256, .f32⟩
  | .hbm, ⟨29, _⟩ => ⟨S640000x256, .f32⟩
  | .hbm, ⟨30, _⟩ => ⟨S640000x256, .f32⟩
  | .hbm, ⟨31, _⟩ => ⟨S_, .f32⟩
  | .hbm, ⟨32, _⟩ => ⟨S640000x256, .f32⟩
  | .hbm, ⟨33, _⟩ => ⟨S640000x256, .f32⟩
  | .hbm, ⟨34, _⟩ => ⟨S640000x128, .f32⟩
  | .hbm, ⟨35, _⟩ => ⟨S1x128, .f32⟩
  | .hbm, ⟨36, _⟩ => ⟨S640000x128, .f32⟩
  | .hbm, ⟨37, _⟩ => ⟨S640000x128, .f32⟩
  | _, _ => ⟨S640000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_cst : Ref sig .tc := ⟨.hbm, 31, rfl⟩
abbrev main_call0_v0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x128_S640000x384_d1 : Shape.Concatenates [S640000x128, S640000x128, S640000x128] S640000x384 1
  bcast_S256_S1x256_1 : S256.BroadcastsInDim S1x256 (![1] : Fin 1 → Fin S1x256.rank)
  bcast_S1x256_S640000x256_0_1 : S1x256.BroadcastsInDim S640000x256 (![0, 1] : Fin 2 → Fin S640000x256.rank)
  bcast_S_S640000x256 : S_.BroadcastsInDim S640000x256 (![] : Fin 0 → Fin S640000x256.rank)
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  gather_S10000x128_S640000x1_S640000x128_1_0_n_n_0_1_1128_wf : GatherDims.WF S10000x128 S640000x1 S640000x128 [1] [0] [] [0] [] 1 ![1, 128]
  dot_S640000x384_S384x256_S640000x256_1_0_0_1_n_n_wf : DotDims.WF S640000x384 S384x256 S640000x256 [1] [0] [0] [1] [] []
  dot_S640000x256_S256x128_S640000x128_1_0_0_1_n_n_wf : DotDims.WF S640000x256 S256x128 S640000x128 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def dot_S640000x384_S384x256_S640000x256_1_0_0_1_n_n : DotDims S640000x384 S384x256 S640000x256 where
  lhsContracting := [1]
  rhsContracting := [0]
  lhsNonContracting := [0]
  rhsNonContracting := [1]
  lhsBatch := []
  rhsBatch := []
  wf := dot_S640000x384_S384x256_S640000x256_1_0_0_1_n_n_wf
def dot_S640000x256_S256x128_S640000x128_1_0_0_1_n_n : DotDims S640000x256 S256x128 S640000x128 where
  lhsContracting := [1]
  rhsContracting := [0]
  lhsNonContracting := [0]
  rhsNonContracting := [1]
  lhsBatch := []
  rhsBatch := []
  wf := dot_S640000x256_S256x128_S640000x128_1_0_0_1_n_n_wf

class Facts : Prop extends Facts₀ where

variable [Facts]
-- ==== Proof.EdgeMlp.lean ====
/-
  The edge update of a message-passing layer, as mathematics. Each edge carries a feature row of width 128 and
  names two nodes; its input is the row of width 384 made of its own features, its sender's and its receiver's,
  and its output is a two-layer perceptron of that row:

      out[e, j] = sum over h of max (sum over k of x[e, k] * W1[k, h] + b1[h], 0) * W2[h, j] + b2[j].

  The first contraction runs over 384 entries. It can be taken in one sweep over the joined row, or as three
  sweeps of 128 over the three parts against the three horizontal bands of W1, added up: the two are equal in any
  commutative additive monoid (`sum_three_bands`), so in particular on the extended reals, with no finiteness
  assumed. This file states the output entry in the three-band form (`edgeEntry`), the whole output array
  (`edgeMlp`), and the law that joins the two forms.
-/
import Idealize.ShloMosaic.PureOps.Ideal
import Idealize.ShloMosaic.Lib.ValueIdx
import Mathlib.Algebra.BigOperators.Fin

noncomputable section

namespace EdgeMlp

open Idealize.ShloMosaic Idealize.ShloMosaic.ValueIdx

/-- Row `k` of band `b` of a matrix of 384 rows cut into three bands of 128. -/
abbrev band (b : Fin 3) (k : Fin 128) : Fin 384 := ⟨128 * b.val + k.val, by have := b.isLt; have := k.isLt; omega⟩

/-- A sum over 384 entries is the sum of its three bands of 128, in any commutative additive monoid. -/
theorem sum_three_bands {M : Type*} [AddCommMonoid M] (f : Fin 384 → M) :
    ∑ k : Fin 384, f k = (∑ k : Fin 128, f (band 0 k) + ∑ k : Fin 128, f (band 1 k)) + ∑ k : Fin 128, f (band 2 k) := by
  have h1 : ∑ k : Fin 384, f k
      = ∑ i : Fin 256, f (Fin.castAdd 128 i) + ∑ i : Fin 128, f (Fin.natAdd 256 i) :=
    Fin.sum_univ_add (a := 256) (b := 128) f
  have h2 : ∑ i : Fin 256, f (Fin.castAdd 128 i)
      = ∑ i : Fin 128, f (Fin.castAdd 128 (Fin.castAdd 128 i)) + ∑ i : Fin 128, f (Fin.castAdd 128 (Fin.natAdd 128 i)) :=
    Fin.sum_univ_add (a := 128) (b := 128) fun i => f (Fin.castAdd 128 i)
  rw [h1, h2]
  have e0 : ∀ i : Fin 128, (Fin.castAdd 128 (Fin.castAdd 128 i) : Fin 384) = band 0 i := fun i => Fin.ext (by
    show i.val = 128 * 0 + i.val; omega)
  have e1 : ∀ i : Fin 128, (Fin.castAdd 128 (Fin.natAdd 128 i) : Fin 384) = band 1 i := fun i => Fin.ext (by
    show 128 + i.val = 128 * 1 + i.val; omega)
  have e2 : ∀ i : Fin 128, (Fin.natAdd 256 i : Fin 384) = band 2 i := fun i => Fin.ext (by
    show 256 + i.val = 128 * 2 + i.val; omega)
  simp only [e0, e1, e2]

/-- One entry of the edge update from the edge's three feature rows, the three bands of the first weight matrix,
    and the rest of the perceptron: the hidden unit `h` is the three partial contractions added left to right, plus
    its bias, clipped at zero; the output is the contraction of the hidden row with column `j` of the second matrix,
    plus its bias. -/
def edgeEntry (xe xf xt : Fin 128 → EReal) (We Wf Wt : Fin 128 → Fin 256 → EReal) (b1 : Fin 256 → EReal)
    (W2 : Fin 256 → Fin 128 → EReal) (b2 : Fin 128 → EReal) (j : Fin 128) : EReal :=
  (∑ h : Fin 256, max ((((∑ k : Fin 128, xe k * We k h) + (∑ k : Fin 128, xf k * Wf k h))
      + (∑ k : Fin 128, xt k * Wt k h)) + b1 h) 0 * W2 h j) + b2 j

/-- The whole output array: entry `(e, j)` is `edgeEntry` of row `e` of the edge features, of the gathered sender
    features and of the gathered receiver features, against the three bands of `W1`. -/
def edgeMlp (ef gf gt : (⟨2, ![640000, 128]⟩ : Shape).Idx → EReal) (W1 : (⟨2, ![384, 256]⟩ : Shape).Idx → EReal)
    (b1 : (⟨1, ![256]⟩ : Shape).Idx → EReal) (W2 : (⟨2, ![256, 128]⟩ : Shape).Idx → EReal)
    (b2 : (⟨1, ![128]⟩ : Shape).Idx → EReal) : (⟨2, ![640000, 128]⟩ : Shape).Idx → EReal :=
  fun i => edgeEntry (fun k => ef (ix2 (i 0) k)) (fun k => gf (ix2 (i 0) k)) (fun k => gt (ix2 (i 0) k))
    (fun k h => W1 (ix2 (band 0 k) h)) (fun k h => W1 (ix2 (band 1 k) h)) (fun k h => W1 (ix2 (band 2 k) h))
    (fun h => b1 (ix1 h)) (fun h j => W2 (ix2 h j)) (fun j => b2 (ix1 j)) (i 1)

/-- An entry of the whole array, spelt out. -/
theorem edgeMlp_apply (ef gf gt : (⟨2, ![640000, 128]⟩ : Shape).Idx → EReal) (W1 : (⟨2, ![384, 256]⟩ : Shape).Idx → EReal)
    (b1 : (⟨1, ![256]⟩ : Shape).Idx → EReal) (W2 : (⟨2, ![256, 128]⟩ : Shape).Idx → EReal)
    (b2 : (⟨1, ![128]⟩ : Shape).Idx → EReal) (i : (⟨2, ![640000, 128]⟩ : Shape).Idx) :
    edgeMlp ef gf gt W1 b1 W2 b2 i
      = edgeEntry (fun k => ef (ix2 (i 0) k)) (fun k => gf (ix2 (i 0) k)) (fun k => gt (ix2 (i 0) k))
          (fun k h => W1 (ix2 (band 0 k) h)) (fun k h => W1 (ix2 (band 1 k) h)) (fun k h => W1 (ix2 (band 2 k) h))
          (fun h => b1 (ix1 h)) (fun h j => W2 (ix2 h j)) (fun j => b2 (ix1 j)) (i 1) := rfl

/-- The entry depends on its operands only through their values. -/
theorem edgeEntry_congr {xe xf xt xe' xf' xt' : Fin 128 → EReal} {We Wf Wt We' Wf' Wt' : Fin 128 → Fin 256 → EReal}
    {b1 b1' : Fin 256 → EReal} {W2 W2' : Fin 256 → Fin 128 → EReal} {b2 b2' : Fin 128 → EReal} {j j' : Fin 128}
    (hxe : ∀ k, xe k = xe' k) (hxf : ∀ k, xf k = xf' k) (hxt : ∀ k, xt k = xt' k)
    (hWe : ∀ k h, We k h = We' k h) (hWf : ∀ k h, Wf k h = Wf' k h) (hWt : ∀ k h, Wt k h = Wt' k h)
    (hb1 : ∀ h, b1 h = b1' h) (hW2 : ∀ h c, W2 h c = W2' h c) (hb2 : ∀ c, b2 c = b2' c) (hj : j = j') :
    edgeEntry xe xf xt We Wf Wt b1 W2 b2 j = edgeEntry xe' xf' xt' We' Wf' Wt' b1' W2' b2' j' := by
  obtain rfl : xe = xe' := funext hxe
  obtain rfl : xf = xf' := funext hxf
  obtain rfl : xt = xt' := funext hxt
  obtain rfl : We = We' := funext fun k => funext (hWe k)
  obtain rfl : Wf = Wf' := funext fun k => funext (hWf k)
  obtain rfl : Wt = Wt' := funext fun k => funext (hWt k)
  obtain rfl : b1 = b1' := funext hb1
  obtain rfl : W2 = W2' := funext fun h => funext (hW2 h)
  obtain rfl : b2 = b2' := funext hb2
  rw [hj]

end EdgeMlp

end
-- ==== Proof.RefRead.lean ====
/-
  The reference computes the edge update in the one-sweep form: it joins each edge's own features with the
  gathered sender and receiver rows into one row of 384, contracts it with the whole first weight matrix, adds the
  bias, clips at zero, contracts with the second matrix and adds its bias. Read entry by entry this is
  `EdgeMlp.edgeMlp` of the same arrays: the joined row at position `128 b + k` is part `b` at `k`
  (`joined_own`, `joined_sender`, `joined_receiver`), so the sweep over 384 splits into the three sweeps over
  128 against the three bands (`EdgeMlp.sum_three_bands`). The two gathers are left as whole arrays: which node
  row an edge reads is the same on both sides of the certificate and never has to be opened.
-/
import proofs.«127945_j21509196219221_1_alg».proof.Proof.Gen.ReferenceIdeal.Read
import proofs.«127945_j21509196219221_1_alg».proof.Proof.EdgeMlp

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx EdgeMlp

/-! ## The joined row, part by part -/

/-- The joined row of an edge at a position in the first band is the edge's own feature there. -/
theorem joined_own (x0 g1 g2 : S640000x128.Idx → EReal) (e : Fin 640000) (k : Fin 128) :
    concatenate S640000x384 1 [⟨S640000x128, x0⟩, ⟨S640000x128, g1⟩, ⟨S640000x128, g2⟩]
      concatenates_S640000x128_S640000x128_S640000x128_S640000x384_d1 (ix2 e (band 0 k)) = x0 (ix2 e k) :=
  concatenate_apply_piece 1 _ _ (ix2 e (band 0 k)) 0 (by show (0 : Nat) < 3; omega) S640000x128 x0 rfl rfl 0 rfl (ix2 e k)
    (fun b hb => by match b with
      | ⟨0, _⟩ => rfl
      | ⟨1, _⟩ => exact absurd rfl hb)
    (by show 0 + k.val = 128 * 0 + k.val; omega)

/-- At a position in the second band it is the gathered sender's feature. -/
theorem joined_sender (x0 g1 g2 : S640000x128.Idx → EReal) (e : Fin 640000) (k : Fin 128) :
    concatenate S640000x384 1 [⟨S640000x128, x0⟩, ⟨S640000x128, g1⟩, ⟨S640000x128, g2⟩]
      concatenates_S640000x128_S640000x128_S640000x128_S640000x384_d1 (ix2 e (band 1 k)) = g1 (ix2 e k) :=
  concatenate_apply_piece 1 _ _ (ix2 e (band 1 k)) 1 (by show (1 : Nat) < 3; omega) S640000x128 g1 rfl rfl 128 rfl (ix2 e k)
    (fun b hb => by match b with
      | ⟨0, _⟩ => rfl
      | ⟨1, _⟩ => exact absurd rfl hb)
    (by show 128 + k.val = 128 * 1 + k.val; omega)

/-- At a position in the third band it is the gathered receiver's feature. -/
theorem joined_receiver (x0 g1 g2 : S640000x128.Idx → EReal) (e : Fin 640000) (k : Fin 128) :
    concatenate S640000x384 1 [⟨S640000x128, x0⟩, ⟨S640000x128, g1⟩, ⟨S640000x128, g2⟩]
      concatenates_S640000x128_S640000x128_S640000x128_S640000x384_d1 (ix2 e (band 2 k)) = g2 (ix2 e k) :=
  concatenate_apply_piece 1 _ _ (ix2 e (band 2 k)) 2 (by show (2 : Nat) < 3; omega) S640000x128 g2 rfl rfl 256 rfl (ix2 e k)
    (fun b hb => by match b with
      | ⟨0, _⟩ => rfl
      | ⟨1, _⟩ => exact absurd rfl hb)
    (by show 256 + k.val = 128 * 2 + k.val; omega)

/-! ## Which entries each contraction and each bias broadcast reads -/

theorem second_lhs (e : Fin 640000) (j : Fin 128) (h : Fin 256) : lidx_main_v20 (ix2 e j) h = ix2 e h :=
  funext fun a => Fin.ext (by match a with | ⟨0, _⟩ => rfl | ⟨1, _⟩ => rfl)
theorem second_rhs (e : Fin 640000) (j : Fin 128) (h : Fin 256) : ridx_main_v20 (ix2 e j) h = ix2 h j :=
  funext fun a => Fin.ext (by match a with | ⟨0, _⟩ => rfl | ⟨1, _⟩ => rfl)
theorem first_lhs (e : Fin 640000) (h : Fin 256) (k : Fin 384) : lidx_main_v15 (ix2 e h) k = ix2 e k :=
  funext fun a => Fin.ext (by match a with | ⟨0, _⟩ => rfl | ⟨1, _⟩ => rfl)
theorem first_rhs (e : Fin 640000) (h : Fin 256) (k : Fin 384) : ridx_main_v15 (ix2 e h) k = ix2 k h :=
  funext fun a => Fin.ext (by match a with | ⟨0, _⟩ => rfl | ⟨1, _⟩ => rfl)
theorem hidden_bias_at (e : Fin 640000) (h : Fin 256) : idx_main_v16 (idx_main_v17 (ix2 e h)) = ix1 h :=
  funext fun a => Fin.ext (by match a with | ⟨0, _⟩ => rfl)
theorem out_bias_at (e : Fin 640000) (j : Fin 128) : idx_main_v21 (idx_main_v22 (ix2 e j)) = ix1 j :=
  funext fun a => Fin.ext (by match a with | ⟨0, _⟩ => rfl)

/-! ## The reference's result is the edge update -/

/-- The reference's last stage, at the extended reals, is `edgeMlp` of the arguments and the two gathered arrays. -/
theorem result_eq (x0 : (⟨S640000x128, .f32⟩ : BufTy).Contents (Elt Ideal)) (x1 : (⟨S10000x128, .f32⟩ : BufTy).Contents (Elt Ideal))
    (x2 x3 : (⟨S640000, .i32⟩ : BufTy).Contents (Elt Ideal)) (x4 : (⟨S384x256, .f32⟩ : BufTy).Contents (Elt Ideal))
    (x5 : (⟨S256, .f32⟩ : BufTy).Contents (Elt Ideal)) (x6 : (⟨S256x128, .f32⟩ : BufTy).Contents (Elt Ideal))
    (x7 : (⟨S128, .f32⟩ : BufTy).Contents (Elt Ideal)) :
    val_main_v23 (F := Ideal) x0 x1 x2 x3 x4 x5 x6 x7
      = edgeMlp x0 (val_main_v6 (F := Ideal) x1 x2) (val_main_v13 (F := Ideal) x1 x3) x4 x5 x6 x7 := by
  funext i
  obtain ⟨e, j, rfl⟩ : ∃ (e : Fin 640000) (j : Fin 128), i = ix2 e j := ⟨i 0, i 1, eq_ix2 i⟩
  rw [val_main_v23_apply, val_main_v20_apply, val_main_v22_apply, val_main_v21_apply, out_bias_at]
  simp only [second_lhs, second_rhs, val_main_v19_apply, val_main_v18_apply, val_main_v15_apply, val_main_v17_apply,
    val_main_v16_apply, hidden_bias_at, val_main_call0_v0_apply, val_main_call0_cst_apply, first_lhs, first_rhs,
    sum_three_bands]
  unfold val_main_v14
  simp only [joined_own, joined_sender, joined_receiver, Ideal.addf_def, Ideal.maximumf_def, Ideal.ofBits_def,
    Ideal.ofBits_zero_f32]
  rfl

end Cert.ReferenceIdeal.RefValue

end
-- ==== Proof.BodyRead.lean ====
/-
  What the kernel body computes for one block of 4000 edges, entry by entry, at the extended reals. The body holds
  the block's own features, its gathered sender and receiver rows, the three bands of the first weight matrix, both
  biases and the second weight matrix. It takes three products of a [4000, 128] block with a [128, 256] band, each
  into a zero accumulator, adds them left to right, adds the bias along the rows, clips at zero, multiplies by the
  [256, 128] matrix into a zero accumulator and adds the second bias along the rows. Narrowing to the short float
  format is the identity at the extended reals and a product into a zero accumulator is a plain sum over the
  contracted axis, so entry `(p, j)` is `EdgeMlp.edgeEntry` of row `p` of the three feature blocks (`body_entry`).
-/
import proofs.«127945_j21509196219221_1_alg».proof.Proof.Gen.KernelIdeal.Skeleton
import proofs.«127945_j21509196219221_1_alg».proof.Proof.EdgeMlp
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BodyValue

open Cert.KernelIdeal Cert.KernelIdeal.Gen
open Idealize.ShloMosaic Idealize.ShloMosaic.TcCoe Idealize.ShloMosaic.ValueIdx EdgeMlp

/-! ## The two contractions: which operand entries meet at a contraction index -/

theorem band_product_lhs_0 (i : S4000x256.Idx) (q : dot_S4000x128_S128x256_S4000x256_1_0_0_1_n_n.contr.Idx) :
    (dot_S4000x128_S128x256_S4000x256_1_0_0_1_n_n.lhsIdx i q 0).val = (i 0).val := by
  unfold DotDims.lhsIdx
  rw [dif_neg (show ¬(0 : Fin S4000x128.rank) ∈ dot_S4000x128_S128x256_S4000x256_1_0_0_1_n_n.lhsBatch by decide), dif_pos (show (0 : Fin S4000x128.rank) ∈ dot_S4000x128_S128x256_S4000x256_1_0_0_1_n_n.lhsNonContracting by decide)]
  rfl
theorem band_product_lhs_1 (i : S4000x256.Idx) (q : dot_S4000x128_S128x256_S4000x256_1_0_0_1_n_n.contr.Idx) :
    (dot_S4000x128_S128x256_S4000x256_1_0_0_1_n_n.lhsIdx i q 1).val = (q ⟨0, by decide⟩).val :=
  dot_S4000x128_S128x256_S4000x256_1_0_0_1_n_n.lhsIdx_val_of_single rfl i q
theorem band_product_rhs_0 (i : S4000x256.Idx) (q : dot_S4000x128_S128x256_S4000x256_1_0_0_1_n_n.contr.Idx) :
    (dot_S4000x128_S128x256_S4000x256_1_0_0_1_n_n.rhsIdx i q 0).val = (q ⟨0, by decide⟩).val :=
  dot_S4000x128_S128x256_S4000x256_1_0_0_1_n_n.rhsIdx_val_of_single rfl i q
theorem band_product_rhs_1 (i : S4000x256.Idx) (q : dot_S4000x128_S128x256_S4000x256_1_0_0_1_n_n.contr.Idx) :
    (dot_S4000x128_S128x256_S4000x256_1_0_0_1_n_n.rhsIdx i q 1).val = (i 1).val := by
  unfold DotDims.rhsIdx
  rw [dif_neg (show ¬(1 : Fin S128x256.rank) ∈ dot_S4000x128_S128x256_S4000x256_1_0_0_1_n_n.rhsBatch by decide), dif_pos (show (1 : Fin S128x256.rank) ∈ dot_S4000x128_S128x256_S4000x256_1_0_0_1_n_n.rhsNonContracting by decide)]
  rfl

theorem out_product_lhs_0 (i : S4000x128.Idx) (q : dot_S4000x256_S256x128_S4000x128_1_0_0_1_n_n.contr.Idx) :
    (dot_S4000x256_S256x128_S4000x128_1_0_0_1_n_n.lhsIdx i q 0).val = (i 0).val := by
  unfold DotDims.lhsIdx
  rw [dif_neg (show ¬(0 : Fin S4000x256.rank) ∈ dot_S4000x256_S256x128_S4000x128_1_0_0_1_n_n.lhsBatch by decide), dif_pos (show (0 : Fin S4000x256.rank) ∈ dot_S4000x256_S256x128_S4000x128_1_0_0_1_n_n.lhsNonContracting by decide)]
  rfl
theorem out_product_lhs_1 (i : S4000x128.Idx) (q : dot_S4000x256_S256x128_S4000x128_1_0_0_1_n_n.contr.Idx) :
    (dot_S4000x256_S256x128_S4000x128_1_0_0_1_n_n.lhsIdx i q 1).val = (q ⟨0, by decide⟩).val :=
  dot_S4000x256_S256x128_S4000x128_1_0_0_1_n_n.lhsIdx_val_of_single rfl i q
theorem out_product_rhs_0 (i : S4000x128.Idx) (q : dot_S4000x256_S256x128_S4000x128_1_0_0_1_n_n.contr.Idx) :
    (dot_S4000x256_S256x128_S4000x128_1_0_0_1_n_n.rhsIdx i q 0).val = (q ⟨0, by decide⟩).val :=
  dot_S4000x256_S256x128_S4000x128_1_0_0_1_n_n.rhsIdx_val_of_single rfl i q
theorem out_product_rhs_1 (i : S4000x128.Idx) (q : dot_S4000x256_S256x128_S4000x128_1_0_0_1_n_n.contr.Idx) :
    (dot_S4000x256_S256x128_S4000x128_1_0_0_1_n_n.rhsIdx i q 1).val = (i 1).val := by
  unfold DotDims.rhsIdx
  rw [dif_neg (show ¬(1 : Fin S256x128.rank) ∈ dot_S4000x256_S256x128_S4000x128_1_0_0_1_n_n.rhsBatch by decide), dif_pos (show (1 : Fin S256x128.rank) ∈ dot_S4000x256_S256x128_S4000x128_1_0_0_1_n_n.rhsNonContracting by decide)]
  rfl

/-! ## A product into a zero accumulator, read at an entry -/

/-- A block of feature rows times one band of the first matrix, into zeros: entry `(p, c)` is the sum over the 128 features of row `p` against column `c` of the band. -/
theorem band_product_at (l : FVec Ideal S4000x128 .bf16) (r : FVec Ideal S128x256 .bf16) (p : Fin 4000) (c : Fin 256) :
    matmul dot_S4000x128_S128x256_S4000x256_1_0_0_1_n_n none l r (constant S4000x256 .f32 0x00000000#32) (ix2 p c)
      = ∑ k : Fin 128, l (ix2 p k) * r (ix2 k c) := by
  simp only [matmul]
  rw [Ideal.matmul_constant_zero_apply, ← Equiv.sum_comp (ValueIdx.contrEquiv1 dot_S4000x128_S128x256_S4000x256_1_0_0_1_n_n 128 rfl rfl).symm]
  refine Finset.sum_congr rfl fun k _ => ?_
  have hk := ValueIdx.contrEquiv1_symm_val dot_S4000x128_S128x256_S4000x256_1_0_0_1_n_n 128 rfl rfl k
  have el : dot_S4000x128_S128x256_S4000x256_1_0_0_1_n_n.lhsIdx (ix2 p c) ((ValueIdx.contrEquiv1 dot_S4000x128_S128x256_S4000x256_1_0_0_1_n_n 128 rfl rfl).symm k) = ix2 p k := funext fun a => Fin.ext (by
    match a with
    | ⟨0, _⟩ => exact band_product_lhs_0 _ _
    | ⟨1, _⟩ => exact (band_product_lhs_1 _ _).trans hk)
  have er : dot_S4000x128_S128x256_S4000x256_1_0_0_1_n_n.rhsIdx (ix2 p c) ((ValueIdx.contrEquiv1 dot_S4000x128_S128x256_S4000x256_1_0_0_1_n_n 128 rfl rfl).symm k) = ix2 k c := funext fun a => Fin.ext (by
    match a with
    | ⟨0, _⟩ => exact (band_product_rhs_0 _ _).trans hk
    | ⟨1, _⟩ => exact band_product_rhs_1 _ _)
  rw [el, er]

/-- The hidden block times the second matrix, into zeros: entry `(p, c)` is the sum over the 256 hidden units of row `p` against column `c`. -/
theorem out_product_at (l : FVec Ideal S4000x256 .bf16) (r : FVec Ideal S256x128 .bf16) (p : Fin 4000) (c : Fin 128) :
    matmul dot_S4000x256_S256x128_S4000x128_1_0_0_1_n_n none l r (constant S4000x128 .f32 0x00000000#32) (ix2 p c)
      = ∑ k : Fin 256, l (ix2 p k) * r (ix2 k c) := by
  simp only [matmul]
  rw [Ideal.matmul_constant_zero_apply, ← Equiv.sum_comp (ValueIdx.contrEquiv1 dot_S4000x256_S256x128_S4000x128_1_0_0_1_n_n 256 rfl rfl).symm]
  refine Finset.sum_congr rfl fun k _ => ?_
  have hk := ValueIdx.contrEquiv1_symm_val dot_S4000x256_S256x128_S4000x128_1_0_0_1_n_n 256 rfl rfl k
  have el : dot_S4000x256_S256x128_S4000x128_1_0_0_1_n_n.lhsIdx (ix2 p c) ((ValueIdx.contrEquiv1 dot_S4000x256_S256x128_S4000x128_1_0_0_1_n_n 256 rfl rfl).symm k) = ix2 p k := funext fun a => Fin.ext (by
    match a with
    | ⟨0, _⟩ => exact out_product_lhs_0 _ _
    | ⟨1, _⟩ => exact (out_product_lhs_1 _ _).trans hk)
  have er : dot_S4000x256_S256x128_S4000x128_1_0_0_1_n_n.rhsIdx (ix2 p c) ((ValueIdx.contrEquiv1 dot_S4000x256_S256x128_S4000x128_1_0_0_1_n_n 256 rfl rfl).symm k) = ix2 k c := funext fun a => Fin.ext (by
    match a with
    | ⟨0, _⟩ => exact (out_product_rhs_0 _ _).trans hk
    | ⟨1, _⟩ => exact out_product_rhs_1 _ _)
  rw [el, er]

/-! ## The body's one stored value, at an entry -/

/-- Entry `(p, j)` of what the body stores is the edge update of row `p` of its three feature blocks. -/
theorem body_entry (v0 : Vec Ideal S4000x128 .f32) (v2 v4 : Vec Ideal S4000x128 .bf16) (v6 v9 v13 : Vec Ideal S128x256 .bf16)
    (v17 : Vec Ideal S256 .f32) (v24 : Vec Ideal S256x128 .bf16) (v27 : Vec Ideal S128 .f32) (p : Fin 4000) (j : Fin 128) :
    k0_pay1 (F := Ideal) v0 v2 v4 v6 v9 v13 v17 v24 v27 (ix2 p j)
      = edgeEntry (fun k => v0 (ix2 p k)) (fun k => v2 (ix2 p k)) (fun k => v4 (ix2 p k)) (fun k h => v6 (ix2 k h))
          (fun k h => v9 (ix2 k h)) (fun k h => v13 (ix2 k h)) (fun h => v17 (ix1 h)) (fun h c => v24 (ix2 h c))
          (fun c => v27 (ix1 c)) j := by
  unfold k0_pay1 edgeEntry
  simp only [shapeCast_self]
  rw [addf_apply, out_product_at, broadcastTo_1b_ab_apply, shapeCast_a_1a_apply]
  simp only [truncf_apply, maximumf_apply, addf_apply, broadcast_apply, band_product_at, broadcastTo_1b_ab_apply,
    shapeCast_a_1a_apply, Ideal.ofBits_def, Ideal.ofBits_zero_f32]

end Cert.KernelIdeal.BodyValue

end
-- ==== Proof.Operands.lean ====
/-
  What the kernel's region finds in the arrays it stages, at the extended reals. Before the region the program
  prepares its operands on the host: it narrows the node table to the short float format and gathers one row of it
  per edge by the sender index and one by the receiver index (an index below zero counted from the table's end
  first, as array indexing does); it cuts the first weight matrix into its three bands of 128 rows and narrows
  each; it narrows the second matrix. At the extended reals narrowing changes nothing, so the gathered arrays are
  the gathers of the node table itself, the bands are the plain row slices, and the second matrix is itself.
-/
import proofs.«127945_j21509196219221_1_alg».proof.Proof.Gen.KernelIdeal.Frame
import Idealize.ShloMosaic.Lib.StableHlo.Run
import Idealize.ShloMosaic.Lib.ValueIdx

noncomputable section

namespace Cert.KernelIdeal.Operands

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

set_option maxHeartbeats 2000000 in
/-- The gathered sender rows: the node table's rows at the sender indices. -/
theorem sender_rows (c : Dev nD) :
    (V m c main_v7 : S640000x128.Idx → EReal)
      = Host.gather gather_S10000x128_S640000x1_S640000x128_1_0_n_n_0_1_1128 (m ((c : Thread nD τ).loc main_arg1)) (broadcastInDim S640000x1 ![0] bcast_S640000_S640000x1_0 (select (cmpi .slt (m ((c : Thread nD τ).loc main_arg2)) (broadcastInDim S640000 ![] bcast_S_S640000 (constantI S_ 32 0#32))) (addi (m ((c : Thread nD τ).loc main_arg2)) (broadcastInDim S640000 ![] bcast_S_S640000 (constantI S_ 32 10000#32))) (m ((c : Thread nD τ).loc main_arg2)))) := by
  dsimp only [Gen.V, Gen.hostOps0]
  after_results_simp
  rfl

set_option maxHeartbeats 2000000 in
/-- The gathered receiver rows: the node table's rows at the receiver indices. -/
theorem receiver_rows (c : Dev nD) :
    (V m c main_v14 : S640000x128.Idx → EReal)
      = Host.gather gather_S10000x128_S640000x1_S640000x128_1_0_n_n_0_1_1128 (m ((c : Thread nD τ).loc main_arg1)) (broadcastInDim S640000x1 ![0] bcast_S640000_S640000x1_0 (select (cmpi .slt (m ((c : Thread nD τ).loc main_arg3)) (broadcastInDim S640000 ![] bcast_S_S640000 (constantI S_ 32 0#32))) (addi (m ((c : Thread nD τ).loc main_arg3)) (broadcastInDim S640000 ![] bcast_S_S640000 (constantI S_ 32 10000#32))) (m ((c : Thread nD τ).loc main_arg3)))) := by
  dsimp only [Gen.V, Gen.hostOps0]
  after_results_simp
  rfl

set_option maxHeartbeats 2000000 in
/-- The first band of the first weight matrix: its rows 0 to 127. -/
theorem band_own (c : Dev nD) :
    (V m c main_v16 : S128x256.Idx → EReal)
      = extractStridedSlice S128x256 ![0, 0] (m ((c : Thread nD τ).loc main_arg4)) slices_S384x256_S128x256_0_0 := by
  dsimp only [Gen.V, Gen.hostOps0]
  after_results_simp
  rfl

set_option maxHeartbeats 2000000 in
/-- The second band: its rows 128 to 255. -/
theorem band_sender (c : Dev nD) :
    (V m c main_v18 : S128x256.Idx → EReal)
      = extractStridedSlice S128x256 ![128, 0] (m ((c : Thread nD τ).loc main_arg4)) slices_S384x256_S128x256_128_0 := by
  dsimp only [Gen.V, Gen.hostOps0]
  after_results_simp
  rfl

set_option maxHeartbeats 2000000 in
/-- The third band: its rows 256 to 383. -/
theorem band_receiver (c : Dev nD) :
    (V m c main_v20 : S128x256.Idx → EReal)
      = extractStridedSlice S128x256 ![256, 0] (m ((c : Thread nD τ).loc main_arg4)) slices_S384x256_S128x256_256_0 := by
  dsimp only [Gen.V, Gen.hostOps0]
  after_results_simp
  rfl

set_option maxHeartbeats 2000000 in
/-- The second weight matrix, narrowed: itself. -/
theorem second_matrix (c : Dev nD) :
    (V m c main_v21 : S256x128.Idx → EReal) = m ((c : Thread nD τ).loc main_arg6) := by
  dsimp only [Gen.V, Gen.hostOps0]
  after_results_simp
  rfl

end Cert.KernelIdeal.Operands

end
-- ==== Proof.Blocks.lean ====
/-
  From blocks to the whole array. The kernel walks the 640000 edges in 160 blocks of 4000 rows. At block `t` it
  stages rows `4000 t` to `4000 t + 3999` of the edge features and of the two gathered arrays, and the whole of the
  three weight bands, the two biases and the second matrix; the body's result for that block is written back to the
  same rows of the output. By `BodyValue.body_entry` an entry of what block `t` writes back is the edge update of the
  block's row, and the block's row `p` is row `4000 t + p` of the arrays, so what block `t` writes back is block
  `t` of the edge update of the whole arrays (`written_back`). The 160 blocks tile the output (`covered`), so the
  output array ends holding the edge update (`output_eq`), and the run of the kernel's program ends there (`run`).
-/
import proofs.«127945_j21509196219221_1_alg».proof.Proof.Gen.KernelIdeal.Value
import proofs.«127945_j21509196219221_1_alg».proof.Proof.EdgeMlp
import proofs.«127945_j21509196219221_1_alg».proof.Proof.BodyRead
import proofs.«127945_j21509196219221_1_alg».proof.Proof.Operands
import Idealize.ShloMosaic.Lib.Pipeline.Value
import Idealize.ShloMosaic.Lib.ValueIdx

noncomputable section

namespace Cert.KernelIdeal.Blocks

open Cert.KernelIdeal Cert.KernelIdeal.Gen
open Idealize.ShloMosaic Idealize.ShloMosaic.TcCoe Idealize.SL.Sem Idealize.ShloMosaic.ValueIdx EdgeMlp
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a; rfl

/-- The edge update of the arrays the program was launched with: the output the certificate claims. -/
def result (c : Dev nD) : S640000x128.Idx → EReal :=
  edgeMlp (m ((c : Thread nD τ).loc main_arg0))
    (Host.gather gather_S10000x128_S640000x1_S640000x128_1_0_n_n_0_1_1128 (m ((c : Thread nD τ).loc main_arg1)) (broadcastInDim S640000x1 ![0] bcast_S640000_S640000x1_0 (select (cmpi .slt (m ((c : Thread nD τ).loc main_arg2)) (broadcastInDim S640000 ![] bcast_S_S640000 (constantI S_ 32 0#32))) (addi (m ((c : Thread nD τ).loc main_arg2)) (broadcastInDim S640000 ![] bcast_S_S640000 (constantI S_ 32 10000#32))) (m ((c : Thread nD τ).loc main_arg2)))))
    (Host.gather gather_S10000x128_S640000x1_S640000x128_1_0_n_n_0_1_1128 (m ((c : Thread nD τ).loc main_arg1)) (broadcastInDim S640000x1 ![0] bcast_S640000_S640000x1_0 (select (cmpi .slt (m ((c : Thread nD τ).loc main_arg3)) (broadcastInDim S640000 ![] bcast_S_S640000 (constantI S_ 32 0#32))) (addi (m ((c : Thread nD τ).loc main_arg3)) (broadcastInDim S640000 ![] bcast_S_S640000 (constantI S_ 32 10000#32))) (m ((c : Thread nD τ).loc main_arg3)))))
    (m ((c : Thread nD τ).loc main_arg4)) (m ((c : Thread nD τ).loc main_arg5)) (m ((c : Thread nD τ).loc main_arg6)) (m ((c : Thread nD τ).loc main_arg7))

/-- The index maps, decided over the 160 points: the three row-blocked inputs move with the output along the
    rows and stand still along the columns; every other input stays at its one block. -/
theorem idx_facts : ∀ t : Fin cfg0.N,
    win0_0.index t (0 : Fin 2) = win0_9.index t (0 : Fin 2) ∧ win0_0.index t (1 : Fin 2) = 0
    ∧ win0_1.index t (0 : Fin 2) = win0_9.index t (0 : Fin 2) ∧ win0_1.index t (1 : Fin 2) = 0
    ∧ win0_2.index t (0 : Fin 2) = win0_9.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (1 : Fin 2) = 0 ∧ win0_9.index t (0 : Fin 2) ≤ 159 :=
  (by decide +kernel : ∀ t : Fin grid0.N, _)

/-- Every block of rows is some point's. -/
theorem idx_onto : ∀ q : Fin 160, ∃ t : Fin cfg0.N, win0_9.index t = ![q.val, 0] :=
  (by decide +kernel : ∀ q : Fin 160, ∃ t : Fin grid0.N, win0_9.index t = ![q.val, 0])

/-- Two arrays over a block are equal when they agree entry by entry. -/
theorem block_ext (X Y : S4000x128.Idx → EReal) (h : ∀ (p : Fin 4000) (j : Fin 128), X (ix2 p j) = Y (ix2 p j)) : X = Y :=
  funext fun y => by rw [eq_ix2 y]; exact h _ _

set_option maxHeartbeats 1000000 in
/-- WHAT POINT `t` WRITES BACK is block `t` of the edge update of the launch arrays. -/
theorem written_back (c : Dev nD) (t : Fin cfg0.N) :
    (dats m 0 c).flushed 9 t = ((cfg0.win 9).blk t).view.read (Elt Ideal) (result m c) := by
  rw [Value.flushed9]
  unfold out0_9
  rw [View.canon_unit_zero zeros2]
  simp only [View.ld_unit_zero (S := S4000x128) zeros2, View.ld_unit_zero (S := S128x256) zeros2,
    View.ld_unit_zero (S := S256x128) zeros2, View.ld_unit_zero (S := S256) zeros1, View.ld_unit_zero (S := S128) zeros1]
  obtain ⟨e00, e01, e10, e11, e20, e21, e30, e31, e40, e41, e50, e51, e60, e70, e71, e80, e91, e90⟩ := idx_facts t
  refine block_ext _ _ fun p j => ?_
  show k0_pay1 (F := Ideal) (iblk m c 0 t) (iblk m c 1 t) (iblk m c 2 t) (iblk m c 3 t) (iblk m c 4 t) (iblk m c 5 t)
      (iblk m c 6 t) (iblk m c 7 t) (iblk m c 8 t) (ix2 p j) = result m c (((cfg0.win 9).blk t).view.emb (ix2 p j))
  refine (BodyValue.body_entry (iblk m c 0 t) (iblk m c 1 t) (iblk m c 2 t) (iblk m c 3 t) (iblk m c 4 t) (iblk m c 5 t)
      (iblk m c 6 t) (iblk m c 7 t) (iblk m c 8 t) p j).trans ?_
  rw [result, edgeMlp_apply]
  refine edgeEntry_congr (fun k => ?_) (fun k => ?_) (fun k => ?_) (fun k h => ?_) (fun k h => ?_) (fun k h => ?_)
    (fun h => ?_) (fun h c' => ?_) (fun c' => ?_) ?_
  · show V m c main_arg0 (((cfg0.win 0).blk t).view.emb (ix2 p k)) = _
    rw [V_main_arg0]
    refine congrArg _ (funext fun a => Fin.ext ?_)
    match a with
    | ⟨0, _⟩ => show win0_0.index t (0 : Fin 2) * 4000 + 1 * p.val = win0_9.index t (0 : Fin 2) * 4000 + 1 * p.val; omega
    | ⟨1, _⟩ => show win0_0.index t (1 : Fin 2) * 128 + 1 * k.val = k.val; omega
  · show V m c main_v7 (((cfg0.win 1).blk t).view.emb (ix2 p k)) = _
    rw [Operands.sender_rows]
    refine congrArg _ (funext fun a => Fin.ext ?_)
    match a with
    | ⟨0, _⟩ => show win0_1.index t (0 : Fin 2) * 4000 + 1 * p.val = win0_9.index t (0 : Fin 2) * 4000 + 1 * p.val; omega
    | ⟨1, _⟩ => show win0_1.index t (1 : Fin 2) * 128 + 1 * k.val = k.val; omega
  · show V m c main_v14 (((cfg0.win 2).blk t).view.emb (ix2 p k)) = _
    rw [Operands.receiver_rows]
    refine congrArg _ (funext fun a => Fin.ext ?_)
    match a with
    | ⟨0, _⟩ => show win0_2.index t (0 : Fin 2) * 4000 + 1 * p.val = win0_9.index t (0 : Fin 2) * 4000 + 1 * p.val; omega
    | ⟨1, _⟩ => show win0_2.index t (1 : Fin 2) * 128 + 1 * k.val = k.val; omega
  · show V m c main_v16 (((cfg0.win 3).blk t).view.emb (ix2 k h)) = _
    rw [Operands.band_own]
    refine extractStridedSlice_apply _ _ _ _ _ fun a => ?_
    match a with
    | ⟨0, _⟩ => show 128 * 0 + k.val = 0 + (win0_3.index t (0 : Fin 2) * 128 + 1 * k.val); omega
    | ⟨1, _⟩ => show h.val = 0 + (win0_3.index t (1 : Fin 2) * 256 + 1 * h.val); omega
  · show V m c main_v18 (((cfg0.win 4).blk t).view.emb (ix2 k h)) = _
    rw [Operands.band_sender]
    refine extractStridedSlice_apply _ _ _ _ _ fun a => ?_
    match a with
    | ⟨0, _⟩ => show 128 * 1 + k.val = 128 + (win0_4.index t (0 : Fin 2) * 128 + 1 * k.val); omega
    | ⟨1, _⟩ => show h.val = 0 + (win0_4.index t (1 : Fin 2) * 256 + 1 * h.val); omega
  · show V m c main_v20 (((cfg0.win 5).blk t).view.emb (ix2 k h)) = _
    rw [Operands.band_receiver]
    refine extractStridedSlice_apply _ _ _ _ _ fun a => ?_
    match a with
    | ⟨0, _⟩ => show 128 * 2 + k.val = 256 + (win0_5.index t (0 : Fin 2) * 128 + 1 * k.val); omega
    | ⟨1, _⟩ => show h.val = 0 + (win0_5.index t (1 : Fin 2) * 256 + 1 * h.val); omega
  · show V m c main_arg5 (((cfg0.win 6).blk t).view.emb (ix1 h)) = _
    rw [V_main_arg5]
    refine congrArg _ (funext fun a => Fin.ext ?_)
    match a with
    | ⟨0, _⟩ => show win0_6.index t (0 : Fin 1) * 256 + 1 * h.val = h.val; omega
  · show V m c main_v21 (((cfg0.win 7).blk t).view.emb (ix2 h c')) = _
    rw [Operands.second_matrix]
    refine congrArg _ (funext fun a => Fin.ext ?_)
    match a with
    | ⟨0, _⟩ => show win0_7.index t (0 : Fin 2) * 256 + 1 * h.val = h.val; omega
    | ⟨1, _⟩ => show win0_7.index t (1 : Fin 2) * 128 + 1 * c'.val = c'.val; omega
  · show V m c main_arg7 (((cfg0.win 8).blk t).view.emb (ix1 c')) = _
    rw [V_main_arg7]
    refine congrArg _ (funext fun a => Fin.ext ?_)
    match a with
    | ⟨0, _⟩ => show win0_8.index t (0 : Fin 1) * 128 + 1 * c'.val = c'.val; omega
  · refine Fin.ext ?_
    show j.val = win0_9.index t (1 : Fin 2) * 128 + 1 * j.val
    omega

/-- An index of the output is in point `t`'s block iff each coordinate is in the block's range on its axis. -/
theorem mem_block (t : Fin cfg0.N) (i : S640000x128.Idx) :
    i ∈ ((cfg0.win 9).blk t).view.set ↔ ∀ a : Fin 2, win0_9.index t a * S4000x128.size a ≤ (i a).val ∧ (i a).val < win0_9.index t a * S4000x128.size a + S4000x128.size a := by
  show i ∈ ((View.whole main_v22).slice (win0_9.rect t)).set ↔ _
  rw [View.set_slice_whole, Rect.mem_set_unit]
  exact Iff.rfl

/-- THE BLOCKS TILE THE OUTPUT: row `r` lies in the block of the point whose row-block index is `r / 4000`. -/
theorem covered (i : S640000x128.Idx) :
    ∃ t : Fin cfg0.N, (cfg0.win 9).flush t = true ∧ i ∈ ((cfg0.win 9).blk t).view.set := by
  have hi0 : (i 0).val < 640000 := (i 0).isLt
  have hi1 : (i 1).val < 128 := (i 1).isLt
  obtain ⟨t, ht⟩ := idx_onto ⟨(i 0).val / 4000, by omega⟩
  have q0 : win0_9.index t (0 : Fin 2) = (i 0).val / 4000 := congrFun ht 0
  have q1 : win0_9.index t (1 : Fin 2) = 0 := congrFun ht 1
  refine ⟨t, flush0_9 t, ?_⟩
  rw [mem_block]
  intro a
  match a with
  | ⟨0, _⟩ => show win0_9.index t (0 : Fin 2) * 4000 ≤ (i 0).val ∧ (i 0).val < win0_9.index t (0 : Fin 2) * 4000 + 4000; omega
  | ⟨1, _⟩ => show win0_9.index t (1 : Fin 2) * 128 ≤ (i 1).val ∧ (i 1).val < win0_9.index t (1 : Fin 2) * 128 + 128; omega

/-- THE OUTPUT ARRAY after the run is the edge update of the launch arrays. -/
theorem output_eq (c : Dev nD) : (dats m 0 c).arrAt 9 cfg0.N = result m c :=
  (dats m 0 c).arrAt_eq_of_cover 9 (result m c) (fun t _ => written_back m c t) covered

/-- The run of the kernel's program: it ends with the output at the edge update and the arguments unchanged. -/
theorem run : θ_run defs (onTc (τ := τ) (main (F := Ideal))) ⟨m, fun _ => 0, ρ⟩ fun r => ∀ c : Dev nD,
      r.2.mem ((c : Thread nD τ).loc main_v22) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (output_eq m c), (h c).2⟩) (Value.run_blocks m ρ)

end Cert.KernelIdeal.Blocks

end
-- ==== Proof.lean ====
/-
  The certificate of the edge update of a message-passing layer. Each of 640000 edges has a feature row of
  width 128 and names a sender and a receiver among 10000 nodes; the new edge features are a two-layer
  perceptron, with a clip at zero between the layers, of the row of width 384 made of the edge's own features and
  the two nodes' features.

  The reference joins the three rows and contracts the joined row with the whole first weight matrix. The kernel
  gathers the two node rows on the host, from the node table narrowed to the short float format, and in blocks of
  4000 edges contracts each of the three rows with its own band of 128 rows of the first matrix and adds the three
  partial results; the rest of the perceptron is the same on both sides. Over the extended reals narrowing is the
  identity and a sum over 384 entries is the sum of its three bands of 128 in any order of grouping, so the two
  programs compute one function (`EdgeMlp.edgeMlp`): no finiteness of the inputs is used. Which node row an edge
  reads is the same expression of the index arrays on both sides and is never opened.

  The modules: `EdgeMlp` states the function and the three-band law; `RefRead` reads the reference's result as
  that function; `BodyRead` reads one entry of a block's result; `Operands` reads what the host prepared for the
  kernel's region; `Blocks` goes from the blocks to the whole output array and restates the kernel's run.
  The idealization rewrote nothing, so `preserves` has nothing to state.
-/
import proofs.«127945_j21509196219221_1_alg».proof.Defs
import proofs.«127945_j21509196219221_1_alg».proof.Proof.Gen.Kernel
import proofs.«127945_j21509196219221_1_alg».proof.Proof.Gen.Kernel.Skeleton
import proofs.«127945_j21509196219221_1_alg».proof.Proof.Gen.Kernel.Launch
import proofs.«127945_j21509196219221_1_alg».proof.Proof.Gen.Kernel.Points
import proofs.«127945_j21509196219221_1_alg».proof.Proof.Gen.Kernel.Frame
import proofs.«127945_j21509196219221_1_alg».proof.Proof.Gen.KernelIdeal
import proofs.«127945_j21509196219221_1_alg».proof.Proof.Gen.KernelIdeal.Skeleton
import proofs.«127945_j21509196219221_1_alg».proof.Proof.Gen.KernelIdeal.Launch
import proofs.«127945_j21509196219221_1_alg».proof.Proof.Gen.KernelIdeal.Points
import proofs.«127945_j21509196219221_1_alg».proof.Proof.Gen.KernelIdeal.Frame
import proofs.«127945_j21509196219221_1_alg».proof.Proof.Gen.KernelIdeal.Value
import proofs.«127945_j21509196219221_1_alg».proof.Proof.Gen.ReferenceIdeal
import proofs.«127945_j21509196219221_1_alg».proof.Proof.Gen.ReferenceIdeal.Run
import proofs.«127945_j21509196219221_1_alg».proof.Proof.Gen.ReferenceIdeal.Read
import proofs.«127945_j21509196219221_1_alg».proof.Proof.Gen.Pre_finite_inputs
import proofs.«127945_j21509196219221_1_alg».proof.Proof.EdgeMlp
import proofs.«127945_j21509196219221_1_alg».proof.Proof.RefRead
import proofs.«127945_j21509196219221_1_alg».proof.Proof.Blocks
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel [Cert.Kernel.Facts] [Cert.Pre_finite_inputs.Facts] : Cert.frame_Kernel :=
  fun m ρ _ => Cert.Kernel.Gen.frame m ρ

/-- So does the kernel read at the extended reals. -/
theorem frame_kernel_ideal [Cert.KernelIdeal.Facts] [Cert.Pre_finite_inputs.Facts] : Cert.frame_KernelIdeal :=
  fun m ρ _ => Cert.KernelIdeal.Gen.frame m ρ

/-- The reference is a list of host operations: its run, with the result forgotten. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on the arguments both programs end with the edge update of those arguments. -/
theorem same_result [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v23_eq, Cert.ReferenceIdeal.RefValue.result_eq, h0, h1, h2, h3, h4, h5, h6, h7]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, same_result⟩

end Cert.Proof

end
